-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x768 : Shape := ⟨3, ![8, 256, 768]⟩
abbrev S768x256 : Shape := ⟨2, ![768, 256]⟩
abbrev S256 : Shape := ⟨1, ![256]⟩
abbrev S256x50 : Shape := ⟨2, ![256, 50]⟩
abbrev S_ : Shape := ⟨0, ![]⟩

class Facts : Prop where
  bcast_S_S8x256x768 : S_.BroadcastsInDim S8x256x768 (![] : Fin 0 → Fin S8x256x768.rank)
  reducesTo_S8x256x768_S_d0_1_2 : S8x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x50 : S_.BroadcastsInDim S256x50 (![] : Fin 0 → Fin S256x50.rank)
  reducesTo_S256x50_S_d0_1 : S256x50.ReducesTo [0, 1] S_

variable [Facts]

def fn_part1 {F : FTy → Type} [FloatOps F] (main_arg4 : FVec F S256x50 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x50 .f32 := Host.absf main_arg4
  let main_cst_6 : FVec F S_ .f32 := constant S_ .f32 0x7F800000#32
  let main_v20 : FVec F S256x50 .f32 := broadcastInDim S256x50 ![] bcast_S_S256x50 main_cst_6
  let main_v21 : IVec S256x50 1 := cmpf .olt main_v19 main_v20
  let main_c_7 : IVec S_ 1 := constantI S_ 1 1#1
  let main_v22 : IVec S_ 1 := (fun x v => Host.reduce IntOp.andi x v reducesTo_S256x50_S_d0_1 h_S_) main_v21 main_c_7
  let main_v23 : IVec S_ 1 := andi main_v18 main_v22
  main_v23

def fn {F : FTy → Type} [FloatOps F] (main_arg0 : FVec F S8x256x768 .f32) (main_arg1 : FVec F S768x256 .f32) (main_arg2 : FVec F S768x256 .f32) (main_arg3 : FVec F S256 .f32) (main_arg4 : FVec F S256x50 .f32) : IVec S_ 1 :=
  let main_v0 : FVec F S8x256x768 .f32 := Host.absf main_arg0
  let main_cst : FVec F S_ .f32 := constant S_ .f32 0x7F800000#32
  let main_v1 : FVec F S8x256x768 .f32 := broadcastInDim S8x256x768 ![] bcast_S_S8x256x768 main_cst
  let main_v2 : IVec S8x256x768 1 := cmpf .olt main_v0 main_v1
  let main_c : IVec S_ 1 := constantI S_ 1 1#1
  let main_v3 : IVec S_ 1 := (fun x v => Host.reduce IntOp.andi x v reducesTo_S8x256x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x256x768 : Shape := ⟨3, ![8, 256, 768]⟩
abbrev S768x256 : Shape := ⟨2, ![768, 256]⟩
abbrev S256 : Shape := ⟨1, ![256]⟩
abbrev S256x50 : Shape := ⟨2, ![256, 50]⟩
abbrev S768x512 : Shape := ⟨2, ![768, 512]⟩
abbrev S_ : Shape := ⟨0, ![]⟩
abbrev S512 : Shape := ⟨1, ![512]⟩
abbrev S1x512 : Shape := ⟨2, ![1, 512]⟩
abbrev S2048x768 : Shape := ⟨2, ![2048, 768]⟩
abbrev S2048x512 : Shape := ⟨2, ![2048, 512]⟩
abbrev S256x768 : Shape := ⟨2, ![256, 768]⟩
abbrev S256x512 : Shape := ⟨2, ![256, 512]⟩
abbrev S2048x256 : Shape := ⟨2, ![2048, 256]⟩
abbrev S8x256x256 : Shape := ⟨3, ![8, 256, 256]⟩
abbrev S8x256x256x50 : Shape := ⟨4, ![8, 256, 256, 50]⟩
abbrev S1x128x256 : Shape := ⟨3, ![1, 128, 256]⟩
abbrev S1x128x128x50 : Shape := ⟨4, ![1, 128, 128, 50]⟩
abbrev S128x256 : Shape := ⟨2, ![128, 256]⟩
abbrev S1x32x256 : Shape := ⟨3, ![1, 32, 256]⟩
abbrev S32x256 : Shape := ⟨2, ![32, 256]⟩
abbrev S32x1x256 : Shape := ⟨3, ![32, 1, 256]⟩
abbrev S32x128x256 : Shape := ⟨3, ![32, 128, 256]⟩
abbrev S4096x256 : Shape := ⟨2, ![4096, 256]⟩
abbrev S4096x50 : Shape := ⟨2, ![4096, 50]⟩
abbrev S32x128x50 : Shape := ⟨3, ![32, 128, 50]⟩
abbrev S1x32x128x50 : Shape := ⟨4, ![1, 32, 128, 50]⟩

abbrev nBuf : Space → Nat
  | .hbm => 18
  | .vmem => 13
  | .smem => 0
  | _ => 0

abbrev bufTy : (tb : Table) → Fin (tcTables nBuf tb) → BufTy
  | .hbm, ⟨0, _⟩ => ⟨S8x256x768, .f32⟩
  | .hbm, ⟨1, _⟩ => ⟨S768x256, .f32⟩
  | .hbm, ⟨2, _⟩ => ⟨S768x256, .f32⟩
  | .hbm, ⟨3, _⟩ => ⟨S256, .f32⟩
  | .hbm, ⟨4, _⟩ => ⟨S256x50, .f32⟩
  | .hbm, ⟨5, _⟩ => ⟨S768x512, .f32⟩
  | .hbm, ⟨6, _⟩ => ⟨S_, .f32⟩
  | .hbm, ⟨7, _⟩ => ⟨S256, .f32⟩
  | .hbm, ⟨8, _⟩ => ⟨S512, .f32⟩
  | .hbm, ⟨9, _⟩ => ⟨S1x512, .f32⟩
  | .hbm, ⟨10, _⟩ => ⟨S2048x768, .f32⟩
  | .hbm, ⟨11, _⟩ => ⟨S2048x512, .bf16⟩
  | .hbm, ⟨12, _⟩ => ⟨S2048x256, .bf16⟩
  | .hbm, ⟨13, _⟩ => ⟨S8x256x256, .bf16⟩
  | .hbm, ⟨14, _⟩ => ⟨S2048x256, .bf16⟩
  | .hbm, ⟨15, _⟩ => ⟨S8x256x256, .bf16⟩
  | .hbm, ⟨16, _⟩ => ⟨S256x50, .bf16⟩
  | .hbm, ⟨17, _⟩ => ⟨S8x256x256x50, .f32⟩
  | .local _ .vmem, ⟨0, _⟩ => ⟨S256x768, .f32⟩
  | .local _ .vmem, ⟨1, _⟩ => ⟨S256x768, .f32⟩
  | .local _ .vmem, ⟨2, _⟩ => ⟨S768x512, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S256x50, .bf16⟩
  | .local _ .vmem, ⟨11, _⟩ => ⟨S1x128x128x50, .f32⟩
  | .local _ .vmem, ⟨12, _⟩ => ⟨S1x128x128x50, .f32⟩
  | _, _ => ⟨S8x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 2, 2], ![false, false, false]⟩

@[reducible] def k1_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32 : BitVec 32 := 32#32
  let v6 : BitVec 32 := Scalar.muli arg7 c32_i32
  v6
def k1_off1 (k1_t1 : Fin k1_t1_loop.trips) : Fin 3 → Nat :=
  let c0_5 : Index := 0#32
  let c0_i32 : BitVec 32 := 0#32
  let c1_i32 : BitVec 32 := 1#32
  let arg7 : BitVec 32 := Scf.iv c0_i32 c1_i32 k1_t1
  let c32_i32 : BitVec 32 := 32#32
  let v6 : BitVec 32 := Scalar.muli arg7 c32_i32
  let v7 : BitVec 32 := v6
  let v8 : Index := Scalar.indexCast v7
  let c0_6 : Index := 0#32
  ![0, v8.toNat, 0]
def k1_off2 (k1_t1 : Fin k1_t1_loop.trips) : Fin 4 → Nat :=
  let c0_7 : Index := 0#32
  let c0_i32 : BitVec 32 := 0#32
  let c1_i32 : BitVec 32 := 1#32
  let arg7 : BitVec 32 := Scf.iv c0_i32 c1_i32 k1_t1
  let c32_i32 : BitVec 32 := 32#32
  let v6 : BitVec 32 := Scalar.muli arg7 c32_i32
  let v7 : BitVec 32 := v6
  let v22 : Index := Scalar.indexCast v7
  let c0_8 : Index := 0#32
  let c0_9 : Index := 0#32
  ![0, v22.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S256x50 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x128x128x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  concatenates_S768x256_S768x256_S768x512_d1 : Shape.Concatenates [S768x256, S768x256] S768x512 1
  bcast_S_S256 : S_.BroadcastsInDim S256 (![] : Fin 0 → Fin S256.rank)
  concatenates_S256_S256_S512_d0 : Shape.Concatenates [S256, S256] S512 0
  shapeCasts_S512_S1x512 : S512.ShapeCasts S1x512
  shapeCasts_S8x256x768_S2048x768 : S8x256x768.ShapeCasts S2048x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  slices_S2048x512_S2048x256_0_0 : S2048x512.Slices ![0, 0] S2048x256
  shapeCasts_S2048x256_S8x256x256 : S2048x256.ShapeCasts S8x256x256
  slices_S2048x512_S2048x256_0_256 : S2048x512.Slices ![0, 256] S2048x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x50_S256x50_0_0 : ∀ a, (![0, 0] : Fin 2 → Nat) a + S256x50.size a ≤ S256x50.size a
  h_S256x50 : 0 < S256x50.numel
  shapeCasts_S256x50_S256x50 : S256x50.ShapeCasts S256x50
  h_S1x32x256 : 0 < S1x32x256.numel
  shapeCasts_S1x32x256_S32x256 : S1x32x256.ShapeCasts S32x256
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S32x128x256_S4096x256 : S32x128x256.ShapeCasts S4096x256
  shapeCasts_S4096x50_S32x128x50 : S4096x50.ShapeCasts S32x128x50
  h_S1x32x128x50 : 0 < S1x32x128x50.numel
  shapeCasts_S1x32x128x50_S32x128x50 : S1x32x128x50.ShapeCasts S32x128x50
  shapeCasts_S32x128x50_S1x32x128x50 : S32x128x50.ShapeCasts S1x32x128x50
  dot_S256x768_S768x512_S256x512_1_0_0_1_n_n_wf : DotDims.WF S256x768 S768x512 S256x512 [1] [0] [0] [1] [] []
  dot_S4096x256_S256x50_S4096x50_1_0_0_1_n_n_wf : DotDims.WF S4096x256 S256x50 S4096x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S2048x768.size a
  hwx0_0 : ∀ i : grid0.Coords, EltTy.bits .f32 = 32 ∨ (Rect.block (s := S2048x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S768x512.size a
  hwx0_1 : ∀ i : grid0.Coords, EltTy.bits .f32 = 32 ∨ (Rect.block (s := S768x512) S768x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x512.size a
  hwx0_3 : ∀ i : grid0.Coords, EltTy.bits .bf16 = 32 ∨ (Rect.block (s := S2048x512) S256x512.size (cc0_transform_3 i) (hinb0_3 i)).WholeWords (EltTy.packing .bf16)
  hrank1 : 0 < grid1.rank
  k1_t1_ok : k1_t1_loop.OK
  k1_mult1_dvd : ∀ k1_t1 : Fin k1_t1_loop.trips, 32 ∣ (k1_mult1 k1_t1).toNat
  k1_off1_inb : ∀ k1_t1 : Fin k1_t1_loop.trips, ∀ a, (k1_off1 k1_t1) a + S1x32x256.size a ≤ S1x128x256.size a
  k1_off2_inb : ∀ k1_t1 : Fin k1_t1_loop.trips, ∀ a, (k1_off2 k1_t1) a + S1x32x128x50.size a ≤ S1x128x128x50.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x256.size a ≤ S8x256x256.size a
  hwx1_0 : ∀ i : grid1.Coords, EltTy.bits .bf16 = 32 ∨ (Rect.block (s := S8x256x256) S1x128x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x256.size a ≤ S8x256x256.size a
  hwx1_1 : ∀ i : grid1.Coords, EltTy.bits .bf16 = 32 ∨ (Rect.block (s := S8x256x256) S1x128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x50.size a ≤ S256x50.size a
  hwx1_2 : ∀ i : grid1.Coords, EltTy.bits .bf16 = 32 ∨ (Rect.block (s := S256x50) S256x50.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128x50.size a ≤ S8x256x256x50.size a
  hwx1_3 : ∀ i : grid1.Coords, EltTy.bits .f32 = 32 ∨ (Rect.block (s := S8x256x256x50) S1x128x128x50.size (cc1_transform_3 i) (hinb1_3 i)).WholeWords (EltTy.packing .f32)

variable [Facts₀]

def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf
def dot_S4096x256_S256x50_S4096x50_1_0_0_1_n_n : DotDims S4096x256 S256x50 S4096x50 where
  lhsContracting := [1]
  rhsContracting := [0]
  lhsNonContracting := [0]
  rhsNonContracting := [1]
  lhsBatch := []
  rhsBatch := []
  wf := dot_S4096x256_S256x50_S4096x50_1_0_0_1_n_n_wf

abbrev win0_0 : Pipeline.Window sig grid0 :=
  Pipeline.Window.ofSpec (Memref.whole main_v4) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S256x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128x128x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x256x768 : Shape := ⟨3, ![8, 256, 768]⟩
abbrev S768x256 : Shape := ⟨2, ![768, 256]⟩
abbrev S256 : Shape := ⟨1, ![256]⟩
abbrev S256x50 : Shape := ⟨2, ![256, 50]⟩
abbrev S8x256x256 : Shape := ⟨3, ![8, 256, 256]⟩
abbrev S8x256x1x256 : Shape := ⟨4, ![8, 256, 1, 256]⟩
abbrev S8x1x256x256 : Shape := ⟨4, ![8, 1, 256, 256]⟩
abbrev S8x256x256x256 : Shape := ⟨4, ![8, 256, 256, 256]⟩
abbrev S1x1x1x256 : Shape := ⟨4, ![1, 1, 1, 256]⟩
abbrev S8x256x256x50 : Shape := ⟨4, ![8, 256, 256, 50]⟩

abbrev nBuf : Space → Nat
  | .hbm => 17
  | .vmem => 0
  | .smem => 0
  | _ => 0

abbrev bufTy : (tb : Table) → Fin (tcTables nBuf tb) → BufTy
  | .hbm, ⟨0, _⟩ => ⟨S8x256x768, .f32⟩
  | .hbm, ⟨1, _⟩ => ⟨S768x256, .f32⟩
  | .hbm, ⟨2, _⟩ => ⟨S768x256, .f32⟩
  | .hbm, ⟨3, _⟩ => ⟨S256, .f32⟩
  | .hbm, ⟨4, _⟩ => ⟨S256x50, .f32⟩
  | .hbm, ⟨5, _⟩ => ⟨S8x256x256, .f32⟩
  | .hbm, ⟨6, _⟩ => ⟨S8x256x256, .f32⟩
  | .hbm, ⟨7, _⟩ => ⟨S8x256x1x256, .f32⟩
  | .hbm, ⟨8, _⟩ => ⟨S8x1x256x256, .f32⟩
  | .hbm, ⟨9, _⟩ => ⟨S8x256x256x256, .f32⟩
  | .hbm, ⟨10, _⟩ => ⟨S8x256x256x256, .f32⟩
  | .hbm, ⟨11, _⟩ => ⟨S8x256x256x256, .f32⟩
  | .hbm, ⟨12, _⟩ => ⟨S1x1x1x256, .f32⟩
  | .hbm, ⟨13, _⟩ => ⟨S8x256x256x256, .f32⟩
  | .hbm, ⟨14, _⟩ => ⟨S8x256x256x256, .f32⟩
  | .hbm, ⟨15, _⟩ => ⟨S8x256x256x256, .f32⟩
  | .hbm, ⟨16, _⟩ => ⟨S8x256x256x50, .f32⟩
  | _, _ => ⟨S8x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S8x256x256_S8x256x1x256_0_1_3 : S8x256x256.BroadcastsInDim S8x256x1x256 (![0, 1, 3] : Fin 3 → Fin S8x256x1x256.rank)
  bcast_S8x256x256_S8x1x256x256_0_2_3 : S8x256x256.BroadcastsInDim S8x1x256x256 (![0, 2, 3] : Fin 3 → Fin S8x1x256x256.rank)
  bcast_S8x256x1x256_S8x256x256x256_0_1_2_3 : S8x256x1x256.BroadcastsInDim S8x256x256x256 (![0, 1, 2, 3] : Fin 4 → Fin S8x256x256x256.rank)
  bcast_S8x1x256x256_S8x256x256x256_0_1_2_3 : S8x1x256x256.BroadcastsInDim S8x256x256x256 (![0, 1, 2, 3] : Fin 4 → Fin S8x256x256x256.rank)
  bcast_S256_S1x1x1x256_3 : S256.BroadcastsInDim S1x1x1x256 (![3] : Fin 1 → Fin S1x1x1x256.rank)
  bcast_S1x1x1x256_S8x256x256x256_0_1_2_3 : S1x1x1x256.BroadcastsInDim S8x256x256x256 (![0, 1, 2, 3] : Fin 4 → Fin S8x256x256x256.rank)
  dot_S8x256x768_S768x256_S8x256x256_2_0_01_1_n_n_wf : DotDims.WF S8x256x768 S768x256 S8x256x256 [2] [0] [0, 1] [1] [] []
  dot_S8x256x256x256_S256x50_S8x256x256x50_3_0_012_1_n_n_wf : DotDims.WF S8x256x256x256 S256x50 S8x256x256x50 [3] [0] [0, 1, 2] [1] [] []

variable [Facts₀]

def dot_S8x256x768_S768x256_S8x256x256_2_0_01_1_n_n : DotDims S8x256x768 S768x256 S8x256x256 where
  lhsContracting := [2]
  rhsContracting := [0]
  lhsNonContracting := [0, 1]
  rhsNonContracting := [1]
  lhsBatch := []
  rhsBatch := []
  wf := dot_S8x256x768_S768x256_S8x256x256_2_0_01_1_n_n_wf
def dot_S8x256x256x256_S256x50_S8x256x256x50_3_0_012_1_n_n : DotDims S8x256x256x256 S256x50 S8x256x256x50 where
  lhsContracting := [3]
  rhsContracting := [0]
  lhsNonContracting := [0, 1, 2]
  rhsNonContracting := [1]
  lhsBatch := []
  rhsBatch := []
  wf := dot_S8x256x256x256_S256x50_S8x256x256x50_3_0_012_1_n_n_wf

class Facts : Prop extends Facts₀ where

variable [Facts]
-- ==== Proof.Spec.lean ====
/-
  The biaffine scorer as mathematics, over the extended reals.

  Tokens x[b, i, ·] (8 batches of 256 tokens, 768 features) are projected twice, by u and by w, into 256 channels:
  proj x u (b, i, k) = Σ_h x[b, i, h] · u[h, k]. The score of the ordered pair (i, j) of tokens of batch b for
  label p is Σ_k tanh (proj x u (b, i, k) + proj x w (b, j, k) + bs[k]) · v[k, p] (`score`).

  The two-stage computation is stated beside it. Stage one is ONE product of the flattened tokens (2048 rows) with the
  two projection matrices side by side (512 columns) plus a bias row (`fused`); stage two reads a left and a right
  table of shape [8, 256, 256] and scores every pair (`pairScore`). `bridge` says that stage two over the two halves of
  stage one is `score`, when the bias row is bs on the left half and zero on the right half: the bias is then added
  to the left projection before the right one is, and addition on the extended reals is commutative and
  associative, and zero is neutral for it, without any finiteness.
-/
import Idealize.ShloMosaic.Lib.ValueIdx

noncomputable section

open scoped BigOperators

namespace Cert.Spec

open Idealize.ShloMosaic Idealize.ShloMosaic.ValueIdx

/-- One projection of the tokens: proj x w (b, i, k) = Σ_h x[b, i, h] · w[h, k]. -/
def proj (x : (⟨3, ![8, 256, 768]⟩ : Shape).Idx → EReal) (w : (⟨2, ![768, 256]⟩ : Shape).Idx → EReal)
    (b : Fin 8) (i : Fin 256) (k : Fin 256) : EReal :=
  ∑ h : Fin 768, x (ix3 b i h) * w (ix2 h k)

/-- The score of the pair (i, j) of batch b for label p: the two projections and the bias summed, through tanh,
    contracted with v over the channel. -/
def scoreAt (x : (⟨3, ![8, 256, 768]⟩ : Shape).Idx → EReal) (u w : (⟨2, ![768, 256]⟩ : Shape).Idx → EReal)
    (bs : (⟨1, ![256]⟩ : Shape).Idx → EReal) (v : (⟨2, ![256, 50]⟩ : Shape).Idx → EReal)
    (b : Fin 8) (i j : Fin 256) (p : Fin 50) : EReal :=
  ∑ k : Fin 256, Ideal.tanh ((proj x u b i k + proj x w b j k) + bs (ix1 k)) * v (ix2 k p)

/-- The scores as one array [8, 256, 256, 50]. -/
def score (x : (⟨3, ![8, 256, 768]⟩ : Shape).Idx → EReal) (u w : (⟨2, ![768, 256]⟩ : Shape).Idx → EReal)
    (bs : (⟨1, ![256]⟩ : Shape).Idx → EReal) (v : (⟨2, ![256, 50]⟩ : Shape).Idx → EReal) :
    (⟨4, ![8, 256, 256, 50]⟩ : Shape).Idx → EReal := fun i => scoreAt x u w bs v (i 0) (i 1) (i 2) (i 3)

/-- Stage one: row r, column n of the product of the flattened tokens with the two matrices side by side, plus the
    bias row at column n. -/
def fusedAt (a : (⟨2, ![2048, 768]⟩ : Shape).Idx → EReal) (wc : (⟨2, ![768, 512]⟩ : Shape).Idx → EReal)
    (bias : (⟨2, ![1, 512]⟩ : Shape).Idx → EReal) (r : Fin 2048) (n : Fin 512) : EReal :=
  (∑ h : Fin 768, a (ix2 r h) * wc (ix2 h n)) + bias (ix2 (0 : Fin 1) n)

/-- Stage one as one array [2048, 512]. -/
def fused (a : (⟨2, ![2048, 768]⟩ : Shape).Idx → EReal) (wc : (⟨2, ![768, 512]⟩ : Shape).Idx → EReal)
    (bias : (⟨2, ![1, 512]⟩ : Shape).Idx → EReal) : (⟨2, ![2048, 512]⟩ : Shape).Idx → EReal := fun i =>
  fusedAt a wc bias (i 0) (i 1)

/-- Stage two: the pair (i, j) of batch b scored for label p from a left and a right table. -/
def pairScoreAt (l r : (⟨3, ![8, 256, 256]⟩ : Shape).Idx → EReal) (v : (⟨2, ![256, 50]⟩ : Shape).Idx → EReal)
    (b : Fin 8) (i j : Fin 256) (p : Fin 50) : EReal :=
  ∑ k : Fin 256, Ideal.tanh (l (ix3 b i k) + r (ix3 b j k)) * v (ix2 k p)

/-- Stage two as one array [8, 256, 256, 50]. -/
def pairScore (l r : (⟨3, ![8, 256, 256]⟩ : Shape).Idx → EReal) (v : (⟨2, ![256, 50]⟩ : Shape).Idx → EReal) :
    (⟨4, ![8, 256, 256, 50]⟩ : Shape).Idx → EReal := fun i => pairScoreAt l r v (i 0) (i 1) (i 2) (i 3)

/-- Row b · 256 + i of the flattened tokens. -/
abbrev row (b : Fin 8) (i : Fin 256) : Fin 2048 := ⟨b.val * 256 + i.val, by have := b.isLt; have := i.isLt; omega⟩
/-- Column k of the left half, and of the right half, of the 512 columns. -/
abbrev colL (k : Fin 256) : Fin 512 := ⟨k.val, by have := k.isLt; omega⟩
abbrev colR (k : Fin 256) : Fin 512 := ⟨256 + k.val, by have := k.isLt; omega⟩

/-- Stage two over the two halves of stage one is the score. -/
theorem bridge (x : (⟨3, ![8, 256, 768]⟩ : Shape).Idx → EReal) (u w : (⟨2, ![768, 256]⟩ : Shape).Idx → EReal)
    (bs : (⟨1, ![256]⟩ : Shape).Idx → EReal) (v : (⟨2, ![256, 50]⟩ : Shape).Idx → EReal)
    (a : (⟨2, ![2048, 768]⟩ : Shape).Idx → EReal) (wc : (⟨2, ![768, 512]⟩ : Shape).Idx → EReal)
    (bias : (⟨2, ![1, 512]⟩ : Shape).Idx → EReal) (l r : (⟨3, ![8, 256, 256]⟩ : Shape).Idx → EReal)
    (ha : ∀ (b : Fin 8) (i : Fin 256) (h : Fin 768), a (ix2 (row b i) h) = x (ix3 b i h))
    (hwl : ∀ (h : Fin 768) (k : Fin 256), wc (ix2 h (colL k)) = u (ix2 h k))
    (hwr : ∀ (h : Fin 768) (k : Fin 256), wc (ix2 h (colR k)) = w (ix2 h k))
    (hbl : ∀ k : Fin 256, bias (ix2 (0 : Fin 1) (colL k)) = bs (ix1 k))
    (hbr : ∀ k : Fin 256, bias (ix2 (0 : Fin 1) (colR k)) = 0)
    (hl : ∀ (b : Fin 8) (i k : Fin 256), l (ix3 b i k) = fusedAt a wc bias (row b i) (colL k))
    (hr : ∀ (b : Fin 8) (j k : Fin 256), r (ix3 b j k) = fusedAt a wc bias (row b j) (colR k)) :
    pairScore l r v = score x u w bs v := by
  have key : ∀ (b : Fin 8) (i j : Fin 256) (p : Fin 50), pairScoreAt l r v b i j p = scoreAt x u w bs v b i j p := by
    intro b i j p
    unfold pairScoreAt scoreAt
    refine Finset.sum_congr rfl fun k _ => ?_
    have el : l (ix3 b i k) = proj x u b i k + bs (ix1 k) := by
      rw [hl]; unfold fusedAt proj
      rw [hbl]
      exact congrArg (· + bs (ix1 k)) (Finset.sum_congr rfl fun h _ => by rw [ha, hwl])
    have er : r (ix3 b j k) = proj x w b j k := by
      rw [hr]; unfold fusedAt proj
      rw [hbr, add_zero]
      exact Finset.sum_congr rfl fun h _ => by rw [ha, hwr]
    rw [el, er, add_right_comm]
  funext i
  exact key (i 0) (i 1) (i 2) (i 3)

end Cert.Spec

end
-- ==== Proof.StageOneValue.lean ====
import proofs.«403160_j10385230921927_3_alg».proof.Proof.Gen.KernelIdeal.Frame
import proofs.«403160_j10385230921927_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.StageOne

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! # Stage one as one array

  The first region multiplies the 2048 flattened token rows by the two projection matrices side by side (768 by 512) and
  adds the bias row, 256 rows at a time over 8 points. Over the extended reals the narrowings to the shorter format are
  the identity and the product into a zero accumulator is the plain sum over the 768 features, so the block a point
  writes is its 256 rows of Spec's fused; the 8 blocks tile the rows, so the array ends as fused. -/

/-! ## The block product at an index

  The contraction of a [256, 768] block with a [768, 512] matrix over the shared axis of length 768: the left operand
  is read at (row of the result, contraction index), the right one at (contraction index, column of the result). -/

/-- The left operand's row is the result's row. -/
theorem lhs_row (i : S256x512.Idx) (q : dot_S256x768_S768x512_S256x512_1_0_0_1_n_n.contr.Idx) :
    (dot_S256x768_S768x512_S256x512_1_0_0_1_n_n.lhsIdx i q 0).val = (i 0).val := by
  unfold DotDims.lhsIdx
  rw [dif_neg (show ¬(0 : Fin S256x768.rank) ∈ dot_S256x768_S768x512_S256x512_1_0_0_1_n_n.lhsBatch by decide), dif_pos (show (0 : Fin S256x768.rank) ∈ dot_S256x768_S768x512_S256x512_1_0_0_1_n_n.lhsNonContracting by decide)]
  rfl
/-- The left operand's column is the contraction index. -/
theorem lhs_col (i : S256x512.Idx) (q : dot_S256x768_S768x512_S256x512_1_0_0_1_n_n.contr.Idx) :
    (dot_S256x768_S768x512_S256x512_1_0_0_1_n_n.lhsIdx i q 1).val = (q ⟨0, by decide⟩).val :=
  dot_S256x768_S768x512_S256x512_1_0_0_1_n_n.lhsIdx_val_of_single rfl i q
/-- The right operand's row is the contraction index. -/
theorem rhs_row (i : S256x512.Idx) (q : dot_S256x768_S768x512_S256x512_1_0_0_1_n_n.contr.Idx) :
    (dot_S256x768_S768x512_S256x512_1_0_0_1_n_n.rhsIdx i q 0).val = (q ⟨0, by decide⟩).val :=
  dot_S256x768_S768x512_S256x512_1_0_0_1_n_n.rhsIdx_val_of_single rfl i q
/-- The right operand's column is the result's column. -/
theorem rhs_col (i : S256x512.Idx) (q : dot_S256x768_S768x512_S256x512_1_0_0_1_n_n.contr.Idx) :
    (dot_S256x768_S768x512_S256x512_1_0_0_1_n_n.rhsIdx i q 1).val = (i 1).val := by
  unfold DotDims.rhsIdx
  rw [dif_neg (show ¬(1 : Fin S768x512.rank) ∈ dot_S256x768_S768x512_S256x512_1_0_0_1_n_n.rhsBatch by decide), dif_pos (show (1 : Fin S768x512.rank) ∈ dot_S256x768_S768x512_S256x512_1_0_0_1_n_n.rhsNonContracting by decide)]
  rfl

/-- The product into the zero accumulator, read at (p, q), is the sum over h of left (p, h) times right (h, q). -/
theorem product_apply (x0 : FVec Ideal S256x768 .bf16) (x1 : FVec Ideal S768x512 .bf16) (p : Fin 256) (q : Fin 512) :
    matmul (F := Ideal) dot_S256x768_S768x512_S256x512_1_0_0_1_n_n none x0 x1 (constant (F := Ideal) S256x512 .f32 0x00000000#32) (ix2 p q)
      = ∑ h : Fin 768, x0 (ix2 p h) * x1 (ix2 h q) := by
  show FloatOps.matmul dot_S256x768_S768x512_S256x512_1_0_0_1_n_n none x0 x1 (constant (F := Ideal) S256x512 .f32 0x00000000#32) (ix2 p q) = _
  rw [Ideal.matmul_constant_zero_apply, ← Equiv.sum_comp (ValueIdx.contrEquiv1 dot_S256x768_S768x512_S256x512_1_0_0_1_n_n 768 rfl rfl).symm]
  refine Finset.sum_congr rfl fun k _ => ?_
  have hk := ValueIdx.contrEquiv1_symm_val dot_S256x768_S768x512_S256x512_1_0_0_1_n_n 768 rfl rfl k
  have el : dot_S256x768_S768x512_S256x512_1_0_0_1_n_n.lhsIdx (ix2 p q) ((ValueIdx.contrEquiv1 dot_S256x768_S768x512_S256x512_1_0_0_1_n_n 768 rfl rfl).symm k) = ix2 p k := funext fun a => Fin.ext (by
    match a with
    | ⟨0, _⟩ => exact lhs_row _ _
    | ⟨1, _⟩ => exact (lhs_col _ _).trans hk)
  have er : dot_S256x768_S768x512_S256x512_1_0_0_1_n_n.rhsIdx (ix2 p q) ((ValueIdx.contrEquiv1 dot_S256x768_S768x512_S256x512_1_0_0_1_n_n 768 rfl rfl).symm k) = ix2 k q := funext fun a => Fin.ext (by
    match a with
    | ⟨0, _⟩ => exact (rhs_row _ _).trans hk
    | ⟨1, _⟩ => exact rhs_col _ _)
  rw [el, er]

/-- The body's arithmetic at (p, q): the block product plus the bias row at column q. The narrowings are the
    identity on the extended reals, and a cast to the same shape changes nothing. -/
theorem payload_apply (x0 : Vec Ideal S256x768 .f32) (x1 : Vec Ideal S768x512 .f32) (x2 : Vec Ideal S1x512 .f32)
    (p : Fin 256) (q : Fin 512) :
    k0_pay1 (F := Ideal) x0 x1 x2 (ix2 p q) = (∑ h : Fin 768, x0 (ix2 p h) * x1 (ix2 h q)) + x2 (ix2 (0 : Fin 1) q) := by
  unfold k0_pay1
  rw [truncf_apply, addf_apply, product_apply, shapeCast_self, shapeCast_self, shapeCast_self, broadcastTo_1b_ab_apply]
  rfl

/-! ## From blocks to the array

  Point t of the grid of 8 reads rows [256 t, 256 t + 256) of the tokens, the whole matrix and the whole bias row, and
  writes rows [256 t, 256 t + 256) of the result. A block's coordinate in its array is the block index times the
  block's extent plus the coordinate inside the block. -/

/-- The accesses of the body start at the origin of their buffers. -/
theorem origin : (![0, 0] : Fin 2 → Nat) = fun _ => 0 := funext fun a => by fin_cases a <;> rfl

/-- The block indices over the grid: the token block and the result block of point t are block (t, 0); the matrix and
    the bias row are always block (0, 0); and there are 8 points. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ t.val ≤ 7 :=
  (by decide +kernel : ∀ t : Fin grid0.N, _)

/-- Every block of 256 rows of the result is some point's. -/
theorem block_onto : ∀ q0 : Fin 8, ∃ t : Fin cfg0.N, win0_3.index t = ![q0.val, 0] :=
  (by decide +kernel : ∀ q0 : Fin 8, ∃ t : Fin grid0.N, win0_3.index t = ![q0.val, 0])

/-- Row p of point t's block is a row of the 2048. -/
theorem row_lt (t : Fin cfg0.N) (p : Fin 256) : t.val * 256 + p.val < 2048 := by
  obtain ⟨-, -, -, -, -, -, -, -, ht⟩ := block_indices t
  have := p.isLt; omega

/-- Point t's token block at (p, h) is the tokens at (256 t + p, h). -/
theorem tokens_block (c : Dev nD) (t : Fin cfg0.N) (p : Fin 256) (h : Fin 768) :
    iblk0 (F := Ideal) V c 0 t (ix2 p h) = V c main_v4 (ix2 ⟨t.val * 256 + p.val, row_lt t p⟩ h) := by
  obtain ⟨e0, e1, -⟩ := block_indices t
  show V c main_v4 (((cfg0.win 0).blk t).view.emb (ix2 p h)) = _
  refine congrArg (V c main_v4) (funext fun a => Fin.ext ?_)
  match a with
  | ⟨0, _⟩ => show win0_0.index t (0 : Fin 2) * 256 + 1 * p.val = t.val * 256 + p.val; omega
  | ⟨1, _⟩ => show win0_0.index t (1 : Fin 2) * 768 + 1 * h.val = h.val; omega

/-- Point t's matrix block is the whole matrix. -/
theorem matrix_block (c : Dev nD) (t : Fin cfg0.N) (h : Fin 768) (q : Fin 512) :
    iblk0 (F := Ideal) V c 1 t (ix2 h q) = V c main_v0 (ix2 h q) := by
  obtain ⟨-, -, e0, e1, -⟩ := block_indices t
  show V c main_v0 (((cfg0.win 1).blk t).view.emb (ix2 h q)) = _
  refine congrArg (V c main_v0) (funext fun a => Fin.ext ?_)
  match a with
  | ⟨0, _⟩ => show win0_1.index t (0 : Fin 2) * 768 + 1 * h.val = h.val; omega
  | ⟨1, _⟩ => show win0_1.index t (1 : Fin 2) * 512 + 1 * q.val = q.val; omega

/-- Point t's bias block is the whole bias row. -/
theorem bias_block (c : Dev nD) (t : Fin cfg0.N) (q : Fin 512) :
    iblk0 (F := Ideal) V c 2 t (ix2 (0 : Fin 1) q) = V c main_v3 (ix2 (0 : Fin 1) q) := by
  obtain ⟨-, -, -, -, e0, e1, -⟩ := block_indices t
  show V c main_v3 (((cfg0.win 2).blk t).view.emb (ix2 (0 : Fin 1) q)) = _
  refine congrArg (V c main_v3) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- Point t's result block at (p, q) sits at (256 t + p, q) of the result. -/
theorem result_block (t : Fin cfg0.N) (p : Fin 256) (q : Fin 512) :
    ((cfg0.win 3).blk t).view.emb (ix2 p q) = ix2 ⟨t.val * 256 + p.val, row_lt t p⟩ q := by
  obtain ⟨-, -, -, -, -, -, e0, e1, -⟩ := block_indices t
  refine funext fun a => Fin.ext ?_
  match a with
  | ⟨0, _⟩ => show win0_3.index t (0 : Fin 2) * 256 + 1 * p.val = t.val * 256 + p.val; omega
  | ⟨1, _⟩ => show win0_3.index t (1 : Fin 2) * 512 + 1 * q.val = q.val; omega

/-- What point t writes back is block t of the fused product: at (p, q) of the block, the sum over h of the tokens at
    (256 t + p, h) times the matrix at (h, q), plus the bias row at q. -/
theorem flushed_eq (c : Dev nD) (t : Fin cfg0.N) :
    (dat0 (F := Ideal) V c).flushed 3 t
      = ((cfg0.win 3).blk t).view.read (Elt Ideal) (Cert.Spec.fused (V c main_v4) (V c main_v0) (V c main_v3)) := by
  show (cfg0.win 3).cut (grid0.coords t) ((dat0 V c).after 3 t) = _
  rw [after0_3]
  unfold out0_3
  rw [View.canon_unit_zero origin]
  simp only [View.ld_unit_zero (S := S256x768) origin, View.ld_unit_zero (S := S768x512) origin, View.ld_unit_zero (S := S1x512) origin]
  funext j
  obtain ⟨p, q, rfl⟩ : ∃ (p : Fin 256) (q : Fin 512), j = ix2 p q := ⟨j 0, j 1, eq_ix2 j⟩
  refine (payload_apply (iblk0 V c 0 t) (iblk0 V c 1 t) (iblk0 V c 2 t) p q).trans ?_
  show _ = Cert.Spec.fused (V c main_v4) (V c main_v0) (V c main_v3) (((cfg0.win 3).blk t).view.emb (ix2 p q))
  rw [result_block t p q, bias_block V c t q]
  unfold Cert.Spec.fused Cert.Spec.fusedAt
  refine congrArg (· + V c main_v3 (ix2 (0 : Fin 1) q)) (Finset.sum_congr rfl fun h _ => ?_)
  rw [tokens_block V c t p h, matrix_block V c t h q]

/-- An index of the result is in point t's block iff each coordinate is in the block's range on its axis. -/
theorem mem_blk (t : Fin cfg0.N) (i : S2048x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v5).slice (win0_3.rect t)).set ↔ _
  rw [View.set_slice_whole, Rect.mem_set_unit]
  exact Iff.rfl

/-- Every index of the result is in some point's block: row r is in the block of point r / 256. -/
theorem cover (i : S2048x512.Idx) :
    ∃ t : Fin cfg0.N, (cfg0.win 3).flush t = true ∧ i ∈ ((cfg0.win 3).blk t).view.set := by
  have hi0 : (i 0).val < 2048 := (i 0).isLt
  have hi1 : (i 1).val < 512 := (i 1).isLt
  obtain ⟨t, ht⟩ := block_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- The result array after the 8 points: the product of the 2048 token rows with the 768 by 512 matrix, plus the bias
    row, since the 8 blocks of 256 rows tile the 2048 rows and each holds its rows of that product. -/
theorem final (c : Dev nD) :
    (dat0 (F := Ideal) V c).arrAt 3 cfg0.N = Cert.Spec.fused (V c main_v4) (V c main_v0) (V c main_v3) := by
  exact (dat0 (F := Ideal) V c).arrAt_eq_of_cover 3 (Cert.Spec.fused (V c main_v4) (V c main_v0) (V c main_v3))
    (fun t _ => flushed_eq V c t) cover

end Cert.KernelIdeal.StageOne

end
-- ==== Proof.StageTwoValue.lean ====
/-
  Stage two of the scorer, as a value: what the second region leaves in its output array.

  The grid is (b, ti, tj): batch b, a tile of 128 left rows, a tile of 128 right rows. At a point the body holds the
  left tile, the right tile and all the labels, and fills the block [1, 128, 128, 50] of scores in four chunks of 32
  left rows: a chunk broadcasts its 32 left rows against the 128 right rows, adds, takes tanh, lays the 32 · 128 pairs
  out as 4096 rows and multiplies by the labels [256, 50]. Read at an index the chunk's store is, at pair (a, j) and
  label p, the sum over the channel k of tanh (left[a, k] + right[j, k]) · label[k, p] (`pay_apply`); a trip of the
  chunk loop leaves exactly that store at rows 32 k .. 32 k + 31 (`trip_pieces`, `trip_agree`), so all four trips together
  leave ONE function of the block index (`out_apply`: the pieces of every trip agree with it, and they cover the block).
  The blocks of the 32 points tile the array [8, 256, 256, 50], each block reading the rows of the two tables its index
  names, so the array ends at the pair scores of the tables (`final`).
-/
import proofs.«403160_j10385230921927_3_alg».proof.Proof.Gen.KernelIdeal.Frame
import proofs.«403160_j10385230921927_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.StageTwo

open Idealize.ShloMosaic Idealize.ShloMosaic.TcCoe Idealize.SL.Sem Idealize.ShloMosaic.ValueIdx
open Idealize.ShloMosaic.Pipeline (Dat)
open Cert.KernelIdeal Cert.KernelIdeal.Gen

/-! ## The body's layout operations read at an index

A chunk is 32 rows of the left table against all 128 rows of the right table: the pair (a, j) of a chunk is row
a · 128 + j of the 4096 rows the matrix unit sees. -/

/-- Row a · 128 + j of the 4096 pairs of a chunk. -/
abbrev pairRow (a : Fin 32) (j : Fin 128) : Fin 4096 := ⟨a.val * 128 + j.val, by have := a.isLt; have := j.isLt; omega⟩

theorem cast_lead (v : Vec Ideal S32x128x50 .f32) (h : S32x128x50.ShapeCasts S1x32x128x50) (a : Fin 32) (j : Fin 128) (p : Fin 50) :
    shapeCast S1x32x128x50 v h (ix4 (0 : Fin 1) a j p) = v (ix3 a j p) :=
  shapeCast_apply v h _ _ (by
    rw [Shape.rowMajor_val_three, Shape.rowMajor_val_four]
    show (a.val * 128 + j.val) * 50 + p.val = ((0 * 32 + a.val) * 128 + j.val) * 50 + p.val
    omega)

theorem cast_pairs_out (v : Vec Ideal S4096x50 .f32) (h : S4096x50.ShapeCasts S32x128x50) (a : Fin 32) (j : Fin 128) (p : Fin 50) :
    shapeCast S32x128x50 v h (ix3 a j p) = v (ix2 (pairRow a j) p) :=
  shapeCast_apply v h _ _ (by
    rw [Shape.rowMajor_val_three, Shape.rowMajor_val_two]
    show (a.val * 128 + j.val) * 50 + p.val = (a.val * 128 + j.val) * 50 + p.val
    rfl)

theorem cast_pairs_in (v : Vec Ideal S32x128x256 .bf16) (h : S32x128x256.ShapeCasts S4096x256) (a : Fin 32) (j : Fin 128) (k : Fin 256) :
    shapeCast S4096x256 v h (ix2 (pairRow a j) k) = v (ix3 a j k) :=
  shapeCast_apply v h _ _ (by
    rw [Shape.rowMajor_val_three, Shape.rowMajor_val_two]
    show (a.val * 128 + j.val) * 256 + k.val = (a.val * 128 + j.val) * 256 + k.val
    rfl)

theorem bcast_left (v : Vec Ideal S32x1x256 .f32) (h : S32x1x256.Broadcasts S32x128x256) (a : Fin 32) (j : Fin 128) (k : Fin 256) :
    broadcastTo S32x128x256 v h (ix3 a j k) = v (ix3 a (0 : Fin 1) k) :=
  broadcastTo_apply v h _ _ (fun d => match d with
    | ⟨0, _⟩ => by show a.val = if (32 : Nat) = 1 then 0 else a.val; rw [if_neg (by decide)]
    | ⟨1, _⟩ => by show 0 = if (1 : Nat) = 1 then 0 else j.val; rw [if_pos rfl]
    | ⟨2, _⟩ => by show k.val = if (256 : Nat) = 1 then 0 else k.val; rw [if_neg (by decide)])

theorem bcast_right (v : Vec Ideal S1x128x256 .f32) (h : S1x128x256.Broadcasts S32x128x256) (a : Fin 32) (j : Fin 128) (k : Fin 256) :
    broadcastTo S32x128x256 v h (ix3 a j k) = v (ix3 (0 : Fin 1) j k) :=
  broadcastTo_apply v h _ _ (fun d => match d with
    | ⟨0, _⟩ => by show 0 = if (1 : Nat) = 1 then 0 else a.val; rw [if_pos rfl]
    | ⟨1, _⟩ => by show j.val = if (128 : Nat) = 1 then 0 else j.val; rw [if_neg (by decide)]
    | ⟨2, _⟩ => by show k.val = if (256 : Nat) = 1 then 0 else k.val; rw [if_neg (by decide)])

theorem cast_mid (v : Vec Ideal S32x256 .f32) (h : S32x256.ShapeCasts S32x1x256) (a : Fin 32) (k : Fin 256) :
    shapeCast S32x1x256 v h (ix3 a (0 : Fin 1) k) = v (ix2 a k) :=
  shapeCast_apply v h _ _ (by
    rw [Shape.rowMajor_val_three, Shape.rowMajor_val_two]
    show a.val * 256 + k.val = (a.val * 1 + 0) * 256 + k.val
    omega)

theorem cast_drop32 (v : Vec Ideal S1x32x256 .bf16) (h : S1x32x256.ShapeCasts S32x256) (a : Fin 32) (k : Fin 256) :
    shapeCast S32x256 v h (ix2 a k) = v (ix3 (0 : Fin 1) a k) :=
  shapeCast_apply v h _ _ (by
    rw [Shape.rowMajor_val_three, Shape.rowMajor_val_two]
    show (0 * 32 + a.val) * 256 + k.val = a.val * 256 + k.val
    omega)

theorem cast_add128 (v : Vec Ideal S128x256 .f32) (h : S128x256.ShapeCasts S1x128x256) (j : Fin 128) (k : Fin 256) :
    shapeCast S1x128x256 v h (ix3 (0 : Fin 1) j k) = v (ix2 j k) :=
  shapeCast_apply v h _ _ (by
    rw [Shape.rowMajor_val_three, Shape.rowMajor_val_two]
    show j.val * 256 + k.val = (0 * 128 + j.val) * 256 + k.val
    omega)

theorem cast_drop128 (v : Vec Ideal S1x128x256 .bf16) (h : S1x128x256.ShapeCasts S128x256) (j : Fin 128) (k : Fin 256) :
    shapeCast S128x256 v h (ix2 j k) = v (ix3 (0 : Fin 1) j k) :=
  shapeCast_apply v h _ _ (by
    rw [Shape.rowMajor_val_three, Shape.rowMajor_val_two]
    show (0 * 128 + j.val) * 256 + k.val = j.val * 256 + k.val
    omega)

/-! ## The matrix product of the body read at an index -/

abbrev DD := dot_S4096x256_S256x50_S4096x50_1_0_0_1_n_n

theorem lhs_pairs_0 (i : S4096x50.Idx) (q : dot_S4096x256_S256x50_S4096x50_1_0_0_1_n_n.contr.Idx) :
    (dot_S4096x256_S256x50_S4096x50_1_0_0_1_n_n.lhsIdx i q 0).val = (i 0).val := by
  unfold DotDims.lhsIdx
  rw [dif_neg (show ¬(0 : Fin S4096x256.rank) ∈ dot_S4096x256_S256x50_S4096x50_1_0_0_1_n_n.lhsBatch by decide), dif_pos (show (0 : Fin S4096x256.rank) ∈ dot_S4096x256_S256x50_S4096x50_1_0_0_1_n_n.lhsNonContracting by decide)]
  rfl
theorem lhs_pairs_1 (i : S4096x50.Idx) (q : dot_S4096x256_S256x50_S4096x50_1_0_0_1_n_n.contr.Idx) :
    (dot_S4096x256_S256x50_S4096x50_1_0_0_1_n_n.lhsIdx i q 1).val = (q ⟨0, by decide⟩).val :=
  dot_S4096x256_S256x50_S4096x50_1_0_0_1_n_n.lhsIdx_val_of_single rfl i q
theorem rhs_pairs_0 (i : S4096x50.Idx) (q : dot_S4096x256_S256x50_S4096x50_1_0_0_1_n_n.contr.Idx) :
    (dot_S4096x256_S256x50_S4096x50_1_0_0_1_n_n.rhsIdx i q 0).val = (q ⟨0, by decide⟩).val :=
  dot_S4096x256_S256x50_S4096x50_1_0_0_1_n_n.rhsIdx_val_of_single rfl i q
theorem rhs_pairs_1 (i : S4096x50.Idx) (q : dot_S4096x256_S256x50_S4096x50_1_0_0_1_n_n.contr.Idx) :
    (dot_S4096x256_S256x50_S4096x50_1_0_0_1_n_n.rhsIdx i q 1).val = (i 1).val := by
  unfold DotDims.rhsIdx
  rw [dif_neg (show ¬(1 : Fin S256x50.rank) ∈ dot_S4096x256_S256x50_S4096x50_1_0_0_1_n_n.rhsBatch by decide), dif_pos (show (1 : Fin S256x50.rank) ∈ dot_S4096x256_S256x50_S4096x50_1_0_0_1_n_n.rhsNonContracting by decide)]
  rfl

/-- The product of the 4096 pair rows with the labels, into the zero accumulator, at (r, p): the sum over the channel. -/
theorem matmul_pairs (A : FVec Ideal S4096x256 .bf16) (B : FVec Ideal S256x50 .bf16) (r : Fin 4096) (p : Fin 50) :
    matmul (F := Ideal) dot_S4096x256_S256x50_S4096x50_1_0_0_1_n_n none A B (constant (F := Ideal) S4096x50 .f32 0x00000000#32) (ix2 r p)
      = ∑ k : Fin 256, A (ix2 r k) * B (ix2 k p) := by
  simp only [matmul]
  rw [Ideal.matmul_constant_zero_apply, ← Equiv.sum_comp (ValueIdx.contrEquiv1 dot_S4096x256_S256x50_S4096x50_1_0_0_1_n_n 256 rfl rfl).symm]
  refine Finset.sum_congr rfl fun k _ => ?_
  have hk := ValueIdx.contrEquiv1_symm_val dot_S4096x256_S256x50_S4096x50_1_0_0_1_n_n 256 rfl rfl k
  have el : dot_S4096x256_S256x50_S4096x50_1_0_0_1_n_n.lhsIdx (ix2 r p) ((ValueIdx.contrEquiv1 dot_S4096x256_S256x50_S4096x50_1_0_0_1_n_n 256 rfl rfl).symm k) = ix2 r k := funext fun a => Fin.ext (by
    match a with
    | ⟨0, _⟩ => exact lhs_pairs_0 _ _
    | ⟨1, _⟩ => exact (lhs_pairs_1 _ _).trans hk)
  have er : dot_S4096x256_S256x50_S4096x50_1_0_0_1_n_n.rhsIdx (ix2 r p) ((ValueIdx.contrEquiv1 dot_S4096x256_S256x50_S4096x50_1_0_0_1_n_n 256 rfl rfl).symm k) = ix2 k p := funext fun a => Fin.ext (by
    match a with
    | ⟨0, _⟩ => exact (rhs_pairs_0 _ _).trans hk
    | ⟨1, _⟩ => exact rhs_pairs_1 _ _)
  rw [el, er]

/-! ## The body's payload read at an index -/

/-- What one chunk stores, at the pair (a, j) and label p: the sum over the channel of tanh of the chunk's left row a
    plus the right row j, times the label column p. (The changes of float format are the identity on extended reals,
    the matrix unit's product into the zero accumulator is the plain sum.) -/
theorem pay_apply (v0 : Vec Ideal S1x128x256 .bf16) (v3 : Vec Ideal S256x50 .bf16) (v9 : Vec Ideal S1x32x256 .bf16)
    (a : Fin 32) (j : Fin 128) (p : Fin 50) :
    k1_pay1 v0 v3 v9 (ix4 (0 : Fin 1) a j p)
      = ∑ k : Fin 256, Ideal.tanh (v9 (ix3 (0 : Fin 1) a k) + v0 (ix3 (0 : Fin 1) j k)) * v3 (ix2 k p) := by
  unfold k1_pay1
  rw [cast_lead, cast_pairs_out, matmul_pairs]
  refine Finset.sum_congr rfl fun k _ => ?_
  rw [shapeCast_self, cast_pairs_in]
  refine congrArg (· * v3 (ix2 k p)) ?_
  show Ideal.tanh (broadcastTo S32x128x256 (shapeCast S32x1x256 (extf (F := Ideal) FTy.f32 (shapeCast S32x256 v9 shapeCasts_S1x32x256_S32x256) bitsLt_bf16_f32) shapeCasts_S32x256_S32x1x256) broadcasts_S32x1x256_S32x128x256 (ix3 a j k)
      + broadcastTo S32x128x256 (shapeCast S1x128x256 (extf (F := Ideal) FTy.f32 (shapeCast S128x256 v0 shapeCasts_S1x128x256_S128x256) bitsLt_bf16_f32) shapeCasts_S128x256_S1x128x256) broadcasts_S1x128x256_S32x128x256 (ix3 a j k)) = _
  rw [bcast_left, bcast_right, cast_mid, cast_add128]
  show Ideal.tanh (shapeCast S32x256 v9 shapeCasts_S1x32x256_S32x256 (ix2 a k) + shapeCast S128x256 v0 shapeCasts_S1x128x256_S128x256 (ix2 j k)) = _
  rw [cast_drop32, cast_drop128]

/-! ## What a grid point's block holds after the body -/

/-- The scores of one block: left row i and right row j of the rows the point stages, label p. -/
def blockScoreAt (x0 x1 : Vec Ideal S1x128x256 .bf16) (x2 : Vec Ideal S256x50 .bf16) (i j : Fin 128) (p : Fin 50) : EReal :=
  ∑ k : Fin 256, Ideal.tanh (x0 (ix3 (0 : Fin 1) i k) + x1 (ix3 (0 : Fin 1) j k)) * x2 (ix2 k p)

/-- As one block [1, 128, 128, 50]. -/
def blockScore (x0 x1 : Vec Ideal S1x128x256 .bf16) (x2 : Vec Ideal S256x50 .bf16) : Vec Ideal S1x128x128x50 .f32 :=
  fun y => blockScoreAt x0 x1 x2 (y 1) (y 2) (y 3)

/-- Row 32 · k + a of the block: row a of chunk k. -/
abbrev chunkRow (k : Fin k1_t1_loop.trips) (a : Fin 32) : Fin 128 :=
  ⟨32 * k.val + a.val, by have := k1_t1_abs.2.1; have := k.isLt; have := a.isLt; omega⟩

/-- ONE TRIP of the chunk loop leaves one piece: the chunk's rows of the block, at the payload of the left rows the
    trip loads (the trip's definition opened here once). -/
theorem trip_pieces (𝒱 : Variants) (c : Dev nD) (bd : Option 𝒱.V) (i : grid1.Coords) (arg3 : Memref sig .tc .vmem S1x128x256 .bf16) (harg3 : arg3.IsWhole) (arg4 : Memref sig .tc .vmem S1x128x256 .bf16) (harg4 : arg4.IsWhole) (arg5 : Memref sig .tc .vmem S256x50 .bf16) (harg5 : arg5.IsWhole) (arg6 : Memref sig .tc .vmem S1x128x128x50 .f32) (harg6 : arg6.IsWhole)
    (v0 : Vec Ideal S1x128x256 .bf16) (v3 : Vec Ideal S256x50 .bf16) (X : BufTy.Contents (Elt Ideal) arg3.view.ty) (k : Fin k1_t1_loop.trips) :
    tripL_k1_t1 (F := Ideal) 𝒱 c bd i arg3 harg3 arg4 harg4 arg5 harg5 arg6 harg6 v0 v3 X k
      = [⟨Rect.unit (s := S1x128x128x50) (k1_off2 k) S1x32x128x50.size (k1_off2_inb k),
          k1_pay1 v0 v3 (View.ld (arg3.view.read (Elt Ideal) X) (Rect.unit (s := S1x128x256) (k1_off1 k) S1x32x256.size (k1_off1_inb k)))⟩] := by
  unfold tripL_k1_t1 trip_k1_t1
  rfl

/-- That piece is the chunk's rows of the block's scores. -/
theorem trip_agree (x0 x1 : Vec Ideal S1x128x256 .bf16) (x2 : Vec Ideal S256x50 .bf16) (k : Fin k1_t1_loop.trips)
    (inb1 : ∀ a, (k1_off1 k) a + S1x32x256.size a ≤ S1x128x256.size a)
    (inb2 : ∀ a, (k1_off2 k) a + S1x32x128x50.size a ≤ S1x128x128x50.size a)
    (y : S1x32x128x50.Idx) :
    k1_pay1 x1 x2 (View.ld x0 (Rect.unit (s := S1x128x256) (k1_off1 k) S1x32x256.size inb1)) y
      = blockScore x0 x1 x2 ((Rect.unit (s := S1x128x128x50) (k1_off2 k) S1x32x128x50.size inb2).emb y) := by
  obtain ⟨z, a, j, p, rfl⟩ : ∃ (z : Fin 1) (a : Fin 32) (j : Fin 128) (p : Fin 50), y = ix4 z a j p :=
    ⟨y 0, y 1, y 2, y 3, eq_ix4 y⟩
  obtain rfl : z = 0 := Subsingleton.elim _ _
  have o1 := k1_off1_eq k
  have o2 := k1_off2_eq k
  have o10 : k1_off1 k (0 : Fin 3) = 0 := congrFun o1 0
  have o11 : k1_off1 k (1 : Fin 3) = 32 * k.val := congrFun o1 1
  have o12 : k1_off1 k (2 : Fin 3) = 0 := congrFun o1 2
  have o21 : k1_off2 k (1 : Fin 4) = 32 * k.val := congrFun o2 1
  have o22 : k1_off2 k (2 : Fin 4) = 0 := congrFun o2 2
  have o23 : k1_off2 k (3 : Fin 4) = 0 := congrFun o2 3
  rw [pay_apply]
  have hrow : ∀ k' : Fin 256, View.ld x0 (Rect.unit (s := S1x128x256) (k1_off1 k) S1x32x256.size inb1) (ix3 (0 : Fin 1) a k')
      = x0 (ix3 (0 : Fin 1) (chunkRow k a) k') := fun k' => congrArg x0 (funext fun d => Fin.ext (by
    match d with
    | ⟨0, _⟩ => show k1_off1 k (0 : Fin 3) + 1 * 0 = 0; rw [o10]
    | ⟨1, _⟩ => show k1_off1 k (1 : Fin 3) + 1 * a.val = 32 * k.val + a.val; rw [o11]; omega
    | ⟨2, _⟩ => show k1_off1 k (2 : Fin 3) + 1 * k'.val = k'.val; rw [o12]; omega))
  have hE1 : ((Rect.unit (s := S1x128x128x50) (k1_off2 k) S1x32x128x50.size inb2).emb (ix4 (0 : Fin 1) a j p) 1 : Fin 128) = chunkRow k a :=
    Fin.ext (by show k1_off2 k (1 : Fin 4) + 1 * a.val = 32 * k.val + a.val; rw [o21]; omega)
  have hE2 : ((Rect.unit (s := S1x128x128x50) (k1_off2 k) S1x32x128x50.size inb2).emb (ix4 (0 : Fin 1) a j p) 2 : Fin 128) = j :=
    Fin.ext (by show k1_off2 k (2 : Fin 4) + 1 * j.val = j.val; rw [o22]; omega)
  have hE3 : ((Rect.unit (s := S1x128x128x50) (k1_off2 k) S1x32x128x50.size inb2).emb (ix4 (0 : Fin 1) a j p) 3 : Fin 50) = p :=
    Fin.ext (by show k1_off2 k (3 : Fin 4) + 1 * p.val = p.val; rw [o23]; omega)
  show _ = blockScoreAt x0 x1 x2 ((Rect.unit (s := S1x128x128x50) (k1_off2 k) S1x32x128x50.size inb2).emb (ix4 (0 : Fin 1) a j p) 1)
      ((Rect.unit (s := S1x128x128x50) (k1_off2 k) S1x32x128x50.size inb2).emb (ix4 (0 : Fin 1) a j p) 2)
      ((Rect.unit (s := S1x128x128x50) (k1_off2 k) S1x32x128x50.size inb2).emb (ix4 (0 : Fin 1) a j p) 3)
  rw [hE1, hE2, hE3]
  unfold blockScoreAt
  exact Finset.sum_congr rfl fun k' _ => by rw [hrow]

theorem hz3 : (![0, 0, 0] : Fin 3 → Nat) = fun _ => 0 := funext fun a => by fin_cases a <;> rfl
theorem hz2 : (![0, 0] : Fin 2 → Nat) = fun _ => 0 := funext fun a => by fin_cases a <;> rfl

/-- If every trip's pieces are blocks of ONE function G of the block index, so are the pieces of all trips before n. -/
theorem pieces_before_agree (c : Dev nD) (i : grid1.Coords) (arg3 : Memref sig .tc .vmem S1x128x256 .bf16) (harg3 : arg3.IsWhole) (arg4 : Memref sig .tc .vmem S1x128x256 .bf16) (harg4 : arg4.IsWhole) (arg5 : Memref sig .tc .vmem S256x50 .bf16) (harg5 : arg5.IsWhole) (arg6 : Memref sig .tc .vmem S1x128x128x50 .f32) (harg6 : arg6.IsWhole)
    (v0 : Vec Ideal S1x128x256 .bf16) (v3 : Vec Ideal S256x50 .bf16) (X : BufTy.Contents (Elt Ideal) arg3.view.ty)
    (G : S1x128x128x50.Idx → Elt Ideal .f32)
    (hG : ∀ (k : Fin k1_t1_loop.trips), ∀ p ∈ tripL_k1_t1 (F := Ideal) Variants.none c none i arg3 harg3 arg4 harg4 arg5 harg5 arg6 harg6 v0 v3 X k,
      ∀ x : p.1.shape.Idx, p.2 x = G (p.1.emb x)) :
    ∀ n : ℕ, ∀ p ∈ pb_k1_t1 (F := Ideal) Variants.none c none i arg3 harg3 arg4 harg4 arg5 harg5 arg6 harg6 v0 v3 X n,
      ∀ x : p.1.shape.Idx, p.2 x = G (p.1.emb x)
  | 0 => fun p hp => absurd hp (by rw [pb_k1_t1.eq_1]; exact List.not_mem_nil)
  | n + 1 => by
    rw [pb_k1_t1.eq_2]; unfold pb_k1_t1Step
    split
    · rename_i h
      intro p hp
      rcases List.mem_append.mp hp with h1 | h1
      · exact hG ⟨n, h⟩ p h1
      · exact pieces_before_agree c i arg3 harg3 arg4 harg4 arg5 harg5 arg6 harg6 v0 v3 X G hG n p h1
    · exact pieces_before_agree c i arg3 harg3 arg4 harg4 arg5 harg5 arg6 harg6 v0 v3 X G hG n

/-- WHAT THE BODY LEAVES in the output's staging buffer, on any staging memrefs: the block's scores of the three blocks
    it is called with. -/
theorem out_apply (c : Dev nD) (i : grid1.Coords) (arg3 : Memref sig .tc .vmem S1x128x256 .bf16) (harg3 : arg3.IsWhole) (arg4 : Memref sig .tc .vmem S1x128x256 .bf16) (harg4 : arg4.IsWhole) (arg5 : Memref sig .tc .vmem S256x50 .bf16) (harg5 : arg5.IsWhole) (arg6 : Memref sig .tc .vmem S1x128x128x50 .f32) (harg6 : arg6.IsWhole)
    (x0 x1 : Vec Ideal S1x128x256 .bf16) (x2 : Vec Ideal S256x50 .bf16) :
    out1_A_3 (F := Ideal) c i arg3 harg3 arg4 harg4 arg5 harg5 arg6 harg6 x0 x1 x2 = blockScore x0 x1 x2 := by
  unfold out1_A_3
  rw [View.read_writes_eq_canon _ _ _ (cover1_A_3 c i arg3 harg3 arg4 harg4 arg5 harg5 arg6 harg6 x0 x1 x2)]
  funext y
  refine View.canon_apply_of_pieces (blockScore x0 x1 x2) _ ?_ y (cover1_A_3 c i arg3 harg3 arg4 harg4 arg5 harg5 arg6 harg6 x0 x1 x2 y)
  unfold kernelRun1_A
  dsimp only
  simp only [View.readAt_eq_ld, harg4.read_unread, harg5.read_unread, View.ld_unit_zero (S := S1x128x256) hz3, View.ld_unit_zero (S := S256x50) hz2]
  refine pieces_before_agree c i arg3 harg3 arg4 harg4 arg5 harg5 arg6 harg6 x1 x2 (harg3.unread x0) (blockScore x0 x1 x2) (fun k p hp x => ?_) _
  rw [trip_pieces] at hp
  obtain rfl := List.mem_singleton.mp hp
  show k1_pay1 x1 x2 (View.ld (arg3.view.read (Elt Ideal) (harg3.unread x0)) (Rect.unit (s := S1x128x256) (k1_off1 k) S1x32x256.size (k1_off1_inb k))) x = _
  rw [harg3.read_unread]
  exact trip_agree x0 x1 x2 k (k1_off1_inb k) (k1_off2_inb k) x

/-! ## From the blocks to the array -/

variable (V : (c : Dev nD) → (b : Ref sig .tc) → Buf (Elt Ideal) ((c : Thread nD τ).loc b))

/-- The printed index maps over the 32 grid points (b, ti, tj): the left table's block is (b, ti), the right table's
    (b, tj), the labels are one block, the output's block is (b, ti, tj). -/
theorem idx_facts : ∀ t : Fin cfg1.N,
    win1_0.index t (0 : Fin 3) = win1_3.index t (0 : Fin 4) ∧ win1_0.index t (1 : Fin 3) = win1_3.index t (1 : Fin 4)
    ∧ win1_0.index t (2 : Fin 3) = 0
    ∧ win1_1.index t (0 : Fin 3) = win1_3.index t (0 : Fin 4) ∧ win1_1.index t (1 : Fin 3) = win1_3.index t (2 : Fin 4)
    ∧ win1_1.index t (2 : Fin 3) = 0
    ∧ win1_2.index t (0 : Fin 2) = 0 ∧ win1_2.index t (1 : Fin 2) = 0
    ∧ win1_3.index t (0 : Fin 4) ≤ 7 ∧ win1_3.index t (1 : Fin 4) ≤ 1 ∧ win1_3.index t (2 : Fin 4) ≤ 1
    ∧ win1_3.index t (3 : Fin 4) = 0 :=
  (by decide +kernel : ∀ t : Fin grid1.N, _)

/-- Every block (b, ti, tj) of the output is some point's. -/
theorem idx_onto : ∀ (q0 : Fin 8) (q1 : Fin 2) (q2 : Fin 2), ∃ t : Fin cfg1.N, win1_3.index t = ![q0.val, q1.val, q2.val, 0] :=
  (by decide +kernel : ∀ (q0 : Fin 8) (q1 : Fin 2) (q2 : Fin 2), ∃ t : Fin grid1.N, win1_3.index t = ![q0.val, q1.val, q2.val, 0])

/-- WHAT POINT t WRITES BACK is block t of the pair scores of the three arrays the region finds. -/
theorem flushed_eq (c : Dev nD) (t : Fin cfg1.N) :
    (dat1 (F := Ideal) V c).flushed 3 t
      = ((cfg1.win 3).blk t).view.read (Elt Ideal) (Cert.Spec.pairScore (V c main_v7) (V c main_v9) (V c main_v10)) := by
  show (cfg1.win 3).cut (grid1.coords t) ((dat1 V c).after 3 t) = _
  rw [after1_3]
  unfold outsAt1
  rw [out_apply]
  obtain ⟨e00, e01, e02, e10, e11, e12, e20, e21, b0, b1, b2, e33⟩ := idx_facts t
  funext y
  obtain ⟨z, a, j, p, rfl⟩ : ∃ (z : Fin 1) (a : Fin 128) (j : Fin 128) (p : Fin 50), y = ix4 z a j p :=
    ⟨y 0, y 1, y 2, y 3, eq_ix4 y⟩
  have hz : z.val = 0 := by have := z.isLt; omega
  show blockScoreAt (iblk1 V c 0 t) (iblk1 V c 1 t) (iblk1 V c 2 t) a j p
      = Cert.Spec.pairScoreAt (V c main_v7) (V c main_v9) (V c main_v10)
          (((cfg1.win 3).blk t).view.emb (ix4 z a j p) 0) (((cfg1.win 3).blk t).view.emb (ix4 z a j p) 1)
          (((cfg1.win 3).blk t).view.emb (ix4 z a j p) 2) (((cfg1.win 3).blk t).view.emb (ix4 z a j p) 3)
  unfold blockScoreAt Cert.Spec.pairScoreAt
  refine Finset.sum_congr rfl fun k _ => ?_
  have hl : iblk1 V c 0 t (ix3 (0 : Fin 1) a k)
      = V c main_v7 (ix3 (((cfg1.win 3).blk t).view.emb (ix4 z a j p) 0) (((cfg1.win 3).blk t).view.emb (ix4 z a j p) 1) k) := by
    show V c main_v7 (((cfg1.win 0).blk t).view.emb (ix3 (0 : Fin 1) a k)) = _
    refine congrArg (V c main_v7) (funext fun d => Fin.ext ?_)
    match d with
    | ⟨0, _⟩ => show win1_0.index t (0 : Fin 3) * 1 + 1 * 0 = win1_3.index t (0 : Fin 4) * 1 + 1 * z.val; omega
    | ⟨1, _⟩ => show win1_0.index t (1 : Fin 3) * 128 + 1 * a.val = win1_3.index t (1 : Fin 4) * 128 + 1 * a.val; omega
    | ⟨2, _⟩ => show win1_0.index t (2 : Fin 3) * 256 + 1 * k.val = k.val; omega
  have hr : iblk1 V c 1 t (ix3 (0 : Fin 1) j k)
      = V c main_v9 (ix3 (((cfg1.win 3).blk t).view.emb (ix4 z a j p) 0) (((cfg1.win 3).blk t).view.emb (ix4 z a j p) 2) k) := by
    show V c main_v9 (((cfg1.win 1).blk t).view.emb (ix3 (0 : Fin 1) j k)) = _
    refine congrArg (V c main_v9) (funext fun d => Fin.ext ?_)
    match d with
    | ⟨0, _⟩ => show win1_1.index t (0 : Fin 3) * 1 + 1 * 0 = win1_3.index t (0 : Fin 4) * 1 + 1 * z.val; omega
    | ⟨1, _⟩ => show win1_1.index t (1 : Fin 3) * 128 + 1 * j.val = win1_3.index t (2 : Fin 4) * 128 + 1 * j.val; omega
    | ⟨2, _⟩ => show win1_1.index t (2 : Fin 3) * 256 + 1 * k.val = k.val; omega
  have hv : iblk1 V c 2 t (ix2 k p)
      = V c main_v10 (ix2 k (((cfg1.win 3).blk t).view.emb (ix4 z a j p) 3)) := by
    show V c main_v10 (((cfg1.win 2).blk t).view.emb (ix2 k p)) = _
    refine congrArg (V c main_v10) (funext fun d => Fin.ext ?_)
    match d with
    | ⟨0, _⟩ => show win1_2.index t (0 : Fin 2) * 256 + 1 * k.val = k.val; omega
    | ⟨1, _⟩ => show win1_2.index t (1 : Fin 2) * 50 + 1 * p.val = win1_3.index t (3 : Fin 4) * 50 + 1 * p.val; omega
  rw [hl, hr, hv]

/-- An index of the array is in point t's block iff each coordinate is in the block's range on its axis. -/
theorem mem_blk (t : Fin cfg1.N) (i : S8x256x256x50.Idx) :
    i ∈ ((cfg1.win 3).blk t).view.set ↔ ∀ a : Fin 4, win1_3.index t a * S1x128x128x50.size a ≤ (i a).val
      ∧ (i a).val < win1_3.index t a * S1x128x128x50.size a + S1x128x128x50.size a := by
  show i ∈ ((View.whole main_v11).slice (win1_3.rect t)).set ↔ _
  rw [View.set_slice_whole, Rect.mem_set_unit]
  exact Iff.rfl

/-- The blocks cover the array: the index (b, i, j, p) is in the block (b, i / 128, j / 128). -/
theorem cover (i : S8x256x256x50.Idx) :
    ∃ t : Fin cfg1.N, (cfg1.win 3).flush t = true ∧ i ∈ ((cfg1.win 3).blk t).view.set := by
  have hi0 : (i 0).val < 8 := (i 0).isLt
  have hi1 : (i 1).val < 256 := (i 1).isLt
  have hi2 : (i 2).val < 256 := (i 2).isLt
  have hi3 : (i 3).val < 50 := (i 3).isLt
  obtain ⟨t, ht⟩ := idx_onto ⟨(i 0).val, hi0⟩ ⟨(i 1).val / 128, by omega⟩ ⟨(i 2).val / 128, by omega⟩
  have q0 : win1_3.index t (0 : Fin 4) = (i 0).val := congrFun ht 0
  have q1 : win1_3.index t (1 : Fin 4) = (i 1).val / 128 := congrFun ht 1
  have q2 : win1_3.index t (2 : Fin 4) = (i 2).val / 128 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 128 ≤ (i 2).val ∧ (i 2).val < win1_3.index t (2 : Fin 4) * 128 + 128; omega
  | ⟨3, _⟩ => show win1_3.index t (3 : Fin 4) * 50 ≤ (i 3).val ∧ (i 3).val < win1_3.index t (3 : Fin 4) * 50 + 50; omega

/-- THE ARRAY after the region: the pair scores of the left table, the right table and the labels the region finds. -/
theorem final (c : Dev nD) :
    (dat1 (F := Ideal) V c).arrAt 3 cfg1.N = Cert.Spec.pairScore (V c main_v7) (V c main_v9) (V c main_v10) :=
  (dat1 (F := Ideal) V c).arrAt_eq_of_cover 3 _ (fun t _ => flushed_eq V c t) cover

end Cert.KernelIdeal.StageTwo

end
-- ==== Proof.HostStages.lean ====
import proofs.«403160_j10385230921927_3_alg».proof.Proof.Gen.KernelIdeal.Frame
import proofs.«403160_j10385230921927_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.HostStages

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-! The arrays computed around the first region, each read at one index.

Before the region: the two weight matrices are laid side by side along the columns (columns 0 to 255 from the
first, 256 to 511 from the second); the bias vector is followed by 256 zeros and the result is read as a
single row of 512; the tokens [8, 256, 768] are flattened to [2048, 768], and since a reshape keeps the
row-major position, entry (b, i, h) lands at row b * 256 + i, column h.

After the region: its output [2048, 512] is cut into its left and right halves of 256 columns, and each half is
read as [8, 256, 256]; again the row-major position is kept, so entry (b, i, k) of a half is row b * 256 + i of the
output, at column k of the left half or 256 + k of the right half. The label matrix only changes format, which on the
extended reals changes nothing. -/

/-- The flattened tokens as one reshape of the argument. -/
theorem tokens_stage (c : Dev nD) :
    (V1 m ρ c main_v4 : S2048x768.Idx → EReal)
      = shapeCast S2048x768 (m ((c : Thread nD τ).loc main_arg0)) shapeCasts_S8x256x768_S2048x768 := by
  show StableHlo.after hostOps0 (W0 m ρ c) (Proc.devRef .tc main_v4) = _
  after_results
  rfl

/-- Row b * 256 + i, column h of the flattened tokens is token i of batch b at feature h: both have row-major
    position (b * 256 + i) * 768 + h. -/
theorem tokens_flat (c : Dev nD) (b : Fin 8) (i : Fin 256) (h : Fin 768) :
    V1 m ρ c main_v4 (ix2 (row b i) h) = m ((c : Thread nD τ).loc main_arg0) (ix3 b i h) := by
  rw [tokens_stage m ρ c]
  refine shapeCast_apply _ _ _ (ix3 b i h) ?_
  rw [Shape.rowMajor_val_three, Shape.rowMajor_val_two]
  show (b.val * 256 + i.val) * 768 + h.val = (b.val * 256 + i.val) * 768 + h.val
  rfl

/-- The two weight matrices side by side, as one concatenation along the columns. -/
theorem weights_stage (c : Dev nD) :
    (V1 m ρ c main_v0 : S768x512.Idx → EReal)
      = concatenate S768x512 1 [⟨S768x256, m ((c : Thread nD τ).loc main_arg1)⟩, ⟨S768x256, m ((c : Thread nD τ).loc main_arg2)⟩]
          concatenates_S768x256_S768x256_S768x512_d1 := by
  show StableHlo.after hostOps0 (W0 m ρ c) (Proc.devRef .tc main_v0) = _
  after_results

/-- A column below 256 falls in the first matrix, at the same column. -/
theorem weights_left (c : Dev nD) (h : Fin 768) (k : Fin 256) :
    V1 m ρ c main_v0 (ix2 h (colL k)) = m ((c : Thread nD τ).loc main_arg1) (ix2 h k) := by
  rw [weights_stage m ρ c]
  refine concatenate_pair_apply_left (t := S768x512) (s₁ := S768x256) (s₂ := S768x256) 1 _ _ _
    (ix2 h (colL k)) (rfl : S768x256.rank = S768x512.rank) (ix2 h k) ?_
  intro a
  match a with
  | ⟨0, _⟩ => rfl
  | ⟨1, _⟩ => rfl

/-- Column 256 + k falls in the second matrix, at column k: the first matrix's 256 columns less. -/
theorem weights_right (c : Dev nD) (h : Fin 768) (k : Fin 256) :
    V1 m ρ c main_v0 (ix2 h (colR k)) = m ((c : Thread nD τ).loc main_arg2) (ix2 h k) := by
  rw [weights_stage m ρ c]
  refine concatenate_pair_apply_right (t := S768x512) (s₁ := S768x256) (s₂ := S768x256) 1 _ _ _
    (ix2 h (colR k)) (rfl : S768x256.rank = S768x512.rank) (rfl : S768x256.rank = S768x512.rank) (ix2 h k) ?_ ?_
  · intro a ha
    match a, ha with
    | ⟨0, _⟩, _ => rfl
    | ⟨1, _⟩, ha => exact absurd rfl ha
  · show k.val + 256 = 256 + k.val
    omega

/-- The bias row: the bias vector followed by 256 copies of the constant zero, read as one row of 512. -/
theorem bias_stage (c : Dev nD) :
    (V1 m ρ c main_v3 : S1x512.Idx → EReal)
      = shapeCast S1x512
          (concatenate S512 0 [⟨S256, m ((c : Thread nD τ).loc main_arg3)⟩,
            ⟨S256, broadcastInDim S256 ![] bcast_S_S256 (constant (F := Ideal) S_ .f32 0x00000000#32)⟩]
            concatenates_S256_S256_S512_d0)
          shapeCasts_S512_S1x512 := by
  show StableHlo.after hostOps0 (W0 m ρ c) (Proc.devRef .tc main_v3) = _
  after_results
  rfl

/-- Entry (0, k) of the row is entry k of the vector of 512 (position 0 * 512 + k), which below 256 is the bias. -/
theorem bias_left (c : Dev nD) (k : Fin 256) :
    V1 m ρ c main_v3 (ix2 (0 : Fin 1) (colL k)) = m ((c : Thread nD τ).loc main_arg3) (ix1 k) := by
  rw [bias_stage m ρ c]
  refine (shapeCast_apply _ _ _ (ix1 (colL k)) ?_).trans ?_
  · rw [Shape.rowMajor_val_one, Shape.rowMajor_val_two]
    show k.val = 0 * 512 + k.val
    omega
  refine concatenate_pair_apply_left (t := S512) (s₁ := S256) (s₂ := S256) 0 _ _ _
    (ix1 (colL k)) (rfl : S256.rank = S512.rank) (ix1 k) ?_
  intro a
  match a with
  | ⟨0, _⟩ => rfl

/-- Entry (0, 256 + k) of the row is entry k of the second piece: the constant zero spread over 256 entries, and the
    word of all zero bits is the extended real 0. -/
theorem bias_right (c : Dev nD) (k : Fin 256) :
    V1 m ρ c main_v3 (ix2 (0 : Fin 1) (colR k)) = (0 : EReal) := by
  rw [bias_stage m ρ c]
  refine (shapeCast_apply _ _ _ (ix1 (colR k)) ?_).trans ?_
  · rw [Shape.rowMajor_val_one, Shape.rowMajor_val_two]
    show 256 + k.val = 0 * 512 + (256 + k.val)
    omega
  refine (concatenate_pair_apply_right (t := S512) (s₁ := S256) (s₂ := S256) 0 _ _ _
    (ix1 (colR k)) (rfl : S256.rank = S512.rank) (rfl : S256.rank = S512.rank) (ix1 k) ?_ ?_).trans ?_
  · intro a ha
    match a, ha with
    | ⟨0, _⟩, ha => exact absurd rfl ha
  · show k.val + 256 = 256 + k.val
    omega
  refine (broadcastInDim_apply _ _ _ (ix1 k) ix0 (fun a => a.elim0)).trans ?_
  rw [ValueIdx.constant_apply, Ideal.ofBits_zero_f32]

/-- The left table: columns 0 to 255 of the first region's output, read as [8, 256, 256]. -/
theorem left_stage (c : Dev nD) :
    (V3 m ρ c main_v7 : S8x256x256.Idx → EReal)
      = shapeCast S8x256x256
          (extractStridedSlice S2048x256 ![0, 0] ((dat0 (V1 m ρ) c).arrAt 3 cfg0.N) slices_S2048x512_S2048x256_0_0)
          shapeCasts_S2048x256_S8x256x256 := by
  have e5 : W2 m ρ c (Proc.devRef .tc main_v5) = (dat0 (V1 m ρ) c).arrAt 3 cfg0.N := W2_arr m ρ c 3
  rw [← e5]
  show StableHlo.after hostOps1 (W2 m ρ c) (Proc.devRef .tc main_v7) = _
  after_results
  rfl

/-- Entry (b, i, k) of the left table has position (b * 256 + i) * 256 + k, that of row b * 256 + i, column k of the
    left half; the half starts at column 0 of the output. -/
theorem left_table (c : Dev nD) (b : Fin 8) (i k : Fin 256) :
    V3 m ρ c main_v7 (ix3 b i k) = (dat0 (V1 m ρ) c).arrAt 3 cfg0.N (ix2 (row b i) (colL k)) := by
  rw [left_stage m ρ c]
  refine (shapeCast_apply _ _ _ (ix2 (row b i) k) ?_).trans ?_
  · rw [Shape.rowMajor_val_two, Shape.rowMajor_val_three]
    show (b.val * 256 + i.val) * 256 + k.val = (b.val * 256 + i.val) * 256 + k.val
    rfl
  refine extractStridedSlice_apply _ _ _ _ (ix2 (row b i) (colL k)) ?_
  intro a
  match a with
  | ⟨0, _⟩ => show b.val * 256 + i.val = 0 + (b.val * 256 + i.val); omega
  | ⟨1, _⟩ => show k.val = 0 + k.val; omega

/-- The right table: columns 256 to 511 of the first region's output, read as [8, 256, 256]. -/
theorem right_stage (c : Dev nD) :
    (V3 m ρ c main_v9 : S8x256x256.Idx → EReal)
      = shapeCast S8x256x256
          (extractStridedSlice S2048x256 ![0, 256] ((dat0 (V1 m ρ) c).arrAt 3 cfg0.N) slices_S2048x512_S2048x256_0_256)
          shapeCasts_S2048x256_S8x256x256 := by
  have e5 : W2 m ρ c (Proc.devRef .tc main_v5) = (dat0 (V1 m ρ) c).arrAt 3 cfg0.N := W2_arr m ρ c 3
  rw [← e5]
  show StableHlo.after hostOps1 (W2 m ρ c) (Proc.devRef .tc main_v9) = _
  after_results
  rfl

/-- Entry (b, j, k) of the right table is row b * 256 + j of the output at column 256 + k: the half starts at
    column 256. -/
theorem right_table (c : Dev nD) (b : Fin 8) (j k : Fin 256) :
    V3 m ρ c main_v9 (ix3 b j k) = (dat0 (V1 m ρ) c).arrAt 3 cfg0.N (ix2 (row b j) (colR k)) := by
  rw [right_stage m ρ c]
  refine (shapeCast_apply _ _ _ (ix2 (row b j) k) ?_).trans ?_
  · rw [Shape.rowMajor_val_two, Shape.rowMajor_val_three]
    show (b.val * 256 + j.val) * 256 + k.val = (b.val * 256 + j.val) * 256 + k.val
    rfl
  refine extractStridedSlice_apply _ _ _ _ (ix2 (row b j) (colR k)) ?_
  intro a
  match a with
  | ⟨0, _⟩ => show b.val * 256 + j.val = 0 + (b.val * 256 + j.val); omega
  | ⟨1, _⟩ => show 256 + k.val = 256 + k.val; rfl

/-- The label matrix at the first region's exit is the argument as launched: the region has no window on it and no
    operation before the region writes it. -/
theorem labels_arg (c : Dev nD) :
    W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The narrowed label matrix is the label matrix: narrowing the format is the identity on the extended reals. -/
theorem labels (c : Dev nD) :
    V3 m ρ c main_v10 = m ((c : Thread nD τ).loc main_arg4) := by
  have e : (V3 m ρ c main_v10 : S256x50.Idx → EReal)
      = (truncf (F := Ideal) (s := S256x50) (φ := .f32) .bf16 (W2 m ρ c (Proc.devRef .tc main_arg4)) bitsLt_bf16_f32 : S256x50.Idx → EReal) := by
    show StableHlo.after hostOps1 (W2 m ρ c) (Proc.devRef .tc main_v10) = _
    after_results
  refine e.trans ?_
  rw [labels_arg m ρ c]
  rfl

end Cert.KernelIdeal.HostStages

end
-- ==== Proof.RefValue.lean ====
import proofs.«403160_j10385230921927_3_alg».proof.Proof.Gen.ReferenceIdeal.Run
import proofs.«403160_j10385230921927_3_alg».proof.Proof.Gen.ReferenceIdeal.Read
import proofs.«403160_j10385230921927_3_alg».proof.Proof.Spec

noncomputable section

open scoped BigOperators

namespace Cert.ReferenceIdeal.RefValue

open Idealize.ShloMosaic Idealize.ShloMosaic.ValueIdx
open Cert.ReferenceIdeal Cert.ReferenceIdeal.Read

/-! The reference program reads its operands through compositions of index maps: the last contraction reads the
    tanh stage at (b, i, j, k), the two broadcasts forget j (resp. i), and each projection reads the tokens at
    (b, i, h) (resp. (b, j, h)) and its matrix at (h, k). The lemmas below identify each composed index map with the
    index built from the coordinates. -/

/-- The left projection reads the tokens at (b, i, h): the broadcast along the second token axis forgets j. -/
theorem left_tokens_idx (b : Fin 8) (i1 j : Fin 256) (p : Fin 50) (k : Fin 256) (h : Fin 768) :
    lidx_main_v0 (idx_main_v2 (idx_main_v4 (lidx_main_v11 (ix4 b i1 j p) k))) h = ix3 b i1 h :=
  funext fun a => Fin.ext (by match a with | ⟨0, _⟩ => rfl | ⟨1, _⟩ => rfl | ⟨2, _⟩ => rfl)

/-- The left projection reads its matrix at (h, k). -/
theorem left_matrix_idx (b : Fin 8) (i1 j : Fin 256) (p : Fin 50) (k : Fin 256) (h : Fin 768) :
    ridx_main_v0 (idx_main_v2 (idx_main_v4 (lidx_main_v11 (ix4 b i1 j p) k))) h = ix2 h k :=
  funext fun a => Fin.ext (by match a with | ⟨0, _⟩ => rfl | ⟨1, _⟩ => rfl)

/-- The right projection reads the tokens at (b, j, h): the broadcast along the first token axis forgets i. -/
theorem right_tokens_idx (b : Fin 8) (i1 j : Fin 256) (p : Fin 50) (k : Fin 256) (h : Fin 768) :
    lidx_main_v1 (idx_main_v3 (idx_main_v5 (lidx_main_v11 (ix4 b i1 j p) k))) h = ix3 b j h :=
  funext fun a => Fin.ext (by match a with | ⟨0, _⟩ => rfl | ⟨1, _⟩ => rfl | ⟨2, _⟩ => rfl)

/-- The right projection reads its matrix at (h, k). -/
theorem right_matrix_idx (b : Fin 8) (i1 j : Fin 256) (p : Fin 50) (k : Fin 256) (h : Fin 768) :
    ridx_main_v1 (idx_main_v3 (idx_main_v5 (lidx_main_v11 (ix4 b i1 j p) k))) h = ix2 h k :=
  funext fun a => Fin.ext (by match a with | ⟨0, _⟩ => rfl | ⟨1, _⟩ => rfl)

/-- The broadcast bias is read at the channel k alone. -/
theorem bias_idx (b : Fin 8) (i1 j : Fin 256) (p : Fin 50) (k : Fin 256) :
    idx_main_v7 (idx_main_v8 (lidx_main_v11 (ix4 b i1 j p) k)) = ix1 k :=
  funext fun a => Fin.ext (by match a with | ⟨0, _⟩ => rfl)

/-- The last contraction reads the label matrix at (k, p). -/
theorem label_idx (b : Fin 8) (i1 j : Fin 256) (p : Fin 50) (k : Fin 256) :
    ridx_main_v11 (ix4 b i1 j p) k = ix2 k p :=
  funext fun a => Fin.ext (by match a with | ⟨0, _⟩ => rfl | ⟨1, _⟩ => rfl)

/-- The first contraction, read through the two broadcasts at (b, i, j, k), is the projection by the first matrix
    of token i of batch b into channel k. -/
theorem left_proj (x0 : (⟨S8x256x768, .f32⟩ : BufTy).Contents (Elt Ideal)) (x1 : (⟨S768x256, .f32⟩ : BufTy).Contents (Elt Ideal))
    (b : Fin 8) (i1 j : Fin 256) (p : Fin 50) (k : Fin 256) :
    (∑ h : Fin 768, x0 (lidx_main_v0 (idx_main_v2 (idx_main_v4 (lidx_main_v11 (ix4 b i1 j p) k))) h) *
        x1 (ridx_main_v0 (idx_main_v2 (idx_main_v4 (lidx_main_v11 (ix4 b i1 j p) k))) h))
      = Cert.Spec.proj x0 x1 b i1 k := by
  unfold Cert.Spec.proj
  exact Finset.sum_congr rfl fun h _ => by rw [left_tokens_idx, left_matrix_idx]

/-- The second contraction, read through the two broadcasts at (b, i, j, k), is the projection by the second matrix
    of token j of batch b into channel k. -/
theorem right_proj (x0 : (⟨S8x256x768, .f32⟩ : BufTy).Contents (Elt Ideal)) (x2 : (⟨S768x256, .f32⟩ : BufTy).Contents (Elt Ideal))
    (b : Fin 8) (i1 j : Fin 256) (p : Fin 50) (k : Fin 256) :
    (∑ h : Fin 768, x0 (lidx_main_v1 (idx_main_v3 (idx_main_v5 (lidx_main_v11 (ix4 b i1 j p) k))) h) *
        x2 (ridx_main_v1 (idx_main_v3 (idx_main_v5 (lidx_main_v11 (ix4 b i1 j p) k))) h))
      = Cert.Spec.proj x0 x2 b j k := by
  unfold Cert.Spec.proj
  exact Finset.sum_congr rfl fun h _ => by rw [right_tokens_idx, right_matrix_idx]

/-- The reference program computes the score: at (b, i, j, p) its last contraction is the sum over the channel k of
    tanh (left projection + right projection + bias) times the label matrix, which is the score term by term. -/
theorem result_eq (x0 : (⟨S8x256x768, .f32⟩ : BufTy).Contents (Elt Ideal)) (x1 x2 : (⟨S768x256, .f32⟩ : BufTy).Contents (Elt Ideal))
    (x3 : (⟨S256, .f32⟩ : BufTy).Contents (Elt Ideal)) (x4 : (⟨S256x50, .f32⟩ : BufTy).Contents (Elt Ideal)) :
    val_main_v11 (F := Ideal) x0 x1 x2 x3 x4 = Cert.Spec.score x0 x1 x2 x3 x4 := by
  funext i
  obtain ⟨b, i1, j, p, rfl⟩ : ∃ (b : Fin 8) (i1 j : Fin 256) (p : Fin 50), i = ix4 b i1 j p :=
    ⟨i 0, i 1, i 2, i 3, eq_ix4 i⟩
  rw [val_main_v11_apply]
  show _ = Cert.Spec.scoreAt x0 x1 x2 x3 x4 b i1 j p
  unfold Cert.Spec.scoreAt
  refine Finset.sum_congr rfl fun k _ => ?_
  rw [val_main_v10_apply, val_main_v9_apply, val_main_v6_apply, val_main_v4_apply, val_main_v2_apply,
    val_main_v0_apply, val_main_v5_apply, val_main_v3_apply, val_main_v1_apply, val_main_v8_apply,
    val_main_v7_apply]
  rw [left_proj, right_proj, bias_idx, label_idx, Ideal.hostUnary_tanh_def, Ideal.addf_def, Ideal.addf_def]

end Cert.ReferenceIdeal.RefValue

end
-- ==== Proof.lean ====
/-
  The certificate of the biaffine scorer: the two-stage kernel against the einsum reference, over the extended reals.

  Both programs compute, for batch b, tokens i and j and label p,
      Σ_k tanh (Σ_h x[b,i,h] · u[h,k] + Σ_h x[b,j,h] · w[h,k] + bs[k]) · v[k,p]        (Proof/Spec.lean, `score`).
  The reference does so literally (Proof/RefValue.lean reads its run index by index). The kernel does it in two
  regions: the first multiplies the flattened tokens by u and w side by side and adds a bias row that is bs on the
  left half and zero on the right half (Proof/StageOneValue.lean); host operations cut the result into a left and a
  right table (Proof/HostStages.lean); the second scores every pair of a batch from the two tables
  (Proof/StageTwoValue.lean). So the kernel adds the bias to the left projection before the right projection is added,
  where the reference adds it last: the same extended real, since addition there is commutative and associative and
  zero is neutral (`Spec.bridge`); no finiteness of the inputs is used. The changes of float format are the identity at
  the ideal instance and both matrix products are plain sums there.
  The frames of the two kernel programs are the generated ones; the reference's frame is its generated run with the
  result dropped; the kernel's run with its result array named is Proof/KernelRun.lean.
-/
import proofs.«403160_j10385230921927_3_alg».proof.Defs
import proofs.«403160_j10385230921927_3_alg».proof.Proof.Gen.Kernel
import proofs.«403160_j10385230921927_3_alg».proof.Proof.Gen.Kernel.Skeleton
import proofs.«403160_j10385230921927_3_alg».proof.Proof.Gen.Kernel.Loops
import proofs.«403160_j10385230921927_3_alg».proof.Proof.Gen.Kernel.Launch
import proofs.«403160_j10385230921927_3_alg».proof.Proof.Gen.Kernel.Points
import proofs.«403160_j10385230921927_3_alg».proof.Proof.Gen.Kernel.Frame
import proofs.«403160_j10385230921927_3_alg».proof.Proof.Gen.KernelIdeal
import proofs.«403160_j10385230921927_3_alg».proof.Proof.Gen.KernelIdeal.Skeleton
import proofs.«403160_j10385230921927_3_alg».proof.Proof.Gen.KernelIdeal.Loops
import proofs.«403160_j10385230921927_3_alg».proof.Proof.Gen.KernelIdeal.Launch
import proofs.«403160_j10385230921927_3_alg».proof.Proof.Gen.KernelIdeal.Points
import proofs.«403160_j10385230921927_3_alg».proof.Proof.Gen.KernelIdeal.Frame
import proofs.«403160_j10385230921927_3_alg».proof.Proof.Gen.ReferenceIdeal
import proofs.«403160_j10385230921927_3_alg».proof.Proof.Gen.ReferenceIdeal.Run
import proofs.«403160_j10385230921927_3_alg».proof.Proof.Gen.ReferenceIdeal.Read
import proofs.«403160_j10385230921927_3_alg».proof.Proof.Gen.Pre_finite_inputs
import proofs.«403160_j10385230921927_3_alg».proof.Proof.Spec
import proofs.«403160_j10385230921927_3_alg».proof.Proof.KernelRun
import proofs.«403160_j10385230921927_3_alg».proof.Proof.StageOneValue
import proofs.«403160_j10385230921927_3_alg».proof.Proof.StageTwoValue
import proofs.«403160_j10385230921927_3_alg».proof.Proof.HostStages
import proofs.«403160_j10385230921927_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

section KernelValue

open Cert.KernelIdeal Cert.KernelIdeal.Gen

variable (m : (ℓ : Loc nD τ sig) → Buf (Elt Ideal) ℓ) (ρ : Dev nD → PrngReg)

/-- The kernel's result array, as the run leaves it, is the score of the argument arrays: stage two over the two
    halves of stage one, the bias on the left half only. -/
theorem kernel_result (c : Dev nD) :
    W4 m ρ c (Proc.devRef .tc main_v11)
      = Cert.Spec.score (m ((c : Thread nD τ).loc main_arg0)) (m ((c : Thread nD τ).loc main_arg1))
          (m ((c : Thread nD τ).loc main_arg2)) (m ((c : Thread nD τ).loc main_arg3)) (m ((c : Thread nD τ).loc main_arg4)) := by
  have h : W4 m ρ c (Proc.devRef .tc main_v11) = (dat1 (V3 m ρ) c).arrAt 3 cfg1.N := W4_arr m ρ c 3
  rw [h, Cert.KernelIdeal.StageTwo.final (V3 m ρ) c, Cert.KernelIdeal.HostStages.labels m ρ c]
  exact Cert.Spec.bridge _ _ _ _ _ (V1 m ρ c main_v4) (V1 m ρ c main_v0) (V1 m ρ c main_v3) (V3 m ρ c main_v7) (V3 m ρ c main_v9)
    (Cert.KernelIdeal.HostStages.tokens_flat m ρ c) (Cert.KernelIdeal.HostStages.weights_left m ρ c)
    (Cert.KernelIdeal.HostStages.weights_right m ρ c) (Cert.KernelIdeal.HostStages.bias_left m ρ c)
    (Cert.KernelIdeal.HostStages.bias_right m ρ c)
    (fun b i k => (Cert.KernelIdeal.HostStages.left_table m ρ c b i k).trans
      (congrFun (Cert.KernelIdeal.StageOne.final (V1 m ρ) c) (ix2 (Cert.Spec.row b i) (Cert.Spec.colL k))))
    (fun b j k => (Cert.KernelIdeal.HostStages.right_table m ρ c b j k).trans
      (congrFun (Cert.KernelIdeal.StageOne.final (V1 m ρ) c) (ix2 (Cert.Spec.row b j) (Cert.Spec.colR k))))

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both programs end with the score of the (agreeing) arguments in their result arrays. -/
theorem algebraic : Cert.algebraic_KernelIdeal_ReferenceIdeal := by
  intro m ρ m' ρ' _ hagree
  refine ⟨fun c => Cert.Spec.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_result m ρ c), (h c).2⟩)
      (Cert.KernelIdeal.Launched.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v11_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
